-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩
abbrev S2x1x2048 : Shape := ⟨3, ![2, 1, 2048]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x1x2048x2048 : S_.BroadcastsInDim S2x1x2048x2048 (![] : Fin 0 → Fin S2x1x2048x2048.rank)
  reducesTo_S2x1x2048x2048_S2x1x2048_d3 : S2x1x2048x2048.ReducesTo [3] S2x1x2048
  reducesTo_S2x1x2048_S_d0_1_2 : S2x1x2048.ReducesTo [0, 1, 2] S_

variable [Facts]

def fn_part1 {F : FTy → Type} [FloatOps F] (main_v13 : IVec S_ 1) (main_v15 : IVec S2x1x2048x2048 1) (main_c_5 : IVec S_ 1) : IVec S_ 1 :=
  let main_v16 : IVec S2x1x2048 1 := (fun x v => Host.reduce IntOp.ori x v reducesTo_S2x1x2048x2048_S2x1x2048_d3 h_S_) main_v15 main_c_5
  let main_c_6 : IVec S_ 1 := constantI S_ 1 1#1
  let main_v17 : IVec S_ 1 := (fun x v => Host.reduce IntOp.andi x v reducesTo_S2x1x2048_S_d0_1_2 h_S_) main_v16 main_c_6
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : IVec S2x1x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_c_4 : IVec S_ 32 := constantI S_ 32 0#32
  let main_v14 : IVec S2x1x2048x2048 32 := broadcastInDim S2x1x2048x2048 ![] bcast_S_S2x1x2048x2048 main_c_4
  let main_v15 : IVec S2x1x2048x2048 1 := cmpi .ne main_arg3 main_v14
  let main_c_5 : IVec S_ 1 := constantI S_ 1 0#1
  fn_part1 (F := F) main_v13 main_v15 main_c_5
-- ==== Kernel.lean ====
abbrev S2x16x2048x64 : Shape := ⟨4, ![2, 16, 2048, 64]⟩
abbrev S2x1x2048x2048 : Shape := ⟨4, ![2, 1, 2048, 2048]⟩
abbrev S1x1x512x64 : Shape := ⟨4, ![1, 1, 512, 64]⟩
abbrev S1x1x2048x64 : Shape := ⟨4, ![1, 1, 2048, 64]⟩
abbrev S1x1x2048x2048 : Shape := ⟨4, ![1, 1, 2048, 2048]⟩
abbrev S512x64 : Shape := ⟨2, ![512, 64]⟩
abbrev S2048x64 : Shape := ⟨2, ![2048, 64]⟩
abbrev S512x2048 : Shape := ⟨2, ![512, 2048]⟩
abbrev S1x1x512x2048 : Shape := ⟨4, ![1, 1, 512, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S2x16x2048x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x2048, .i32⟩
  | .local _ .vmem, ⟨7, _⟩ => ⟨S1x1x512x64, .f32⟩
  | .local _ .vmem, ⟨8, _⟩ => ⟨S1x1x512x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 16, 4], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_off1 (i : grid0.Coords) : Fin 4 → Nat :=
  let c0_12 : Index := 0#32
  let c0_13 : Index := 0#32
  let arg2 : BitVec 32 := BitVec.ofNat 32 (i 2).val
  let c512_i32 : BitVec 32 := 512#32
  let v0 : BitVec 32 := Scalar.muli arg2 c512_i32
  let v1 : BitVec 32 := v0
  let v14 : Index := Scalar.indexCast v1
  let c0_14 : Index := 0#32
  ![0, 0, v14.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x2048x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x64 : S512x1.Broadcasts S512x64
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x1x512x2048.size a ≤ S1x1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048x2048.size a ≤ S2x1x2048x2048.size a
  hwx0_3 : ∀ i : grid0.Coords, EltTy.bits .i32 = 32 ∨ (Rect.block (s := S2x1x2048x2048) S1x1x2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S_, .i32⟩
  | .hbm, ⟨10, _⟩ => ⟨S2x1x2048x2048, .i32⟩
  | .hbm, ⟨11, _⟩ => ⟨S2x1x2048x2048, .i1⟩
  | .hbm, ⟨12, _⟩ => ⟨S_, .f32⟩
  | .hbm, ⟨13, _⟩ => ⟨S_, .f32⟩
  | .hbm, ⟨14, _⟩ => ⟨S2x16x2048x2048, .i1⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelPiece.lean ====
/-
  What one run of the kernel body leaves in the output's staging buffer: its single covering store's value, computed
  from the three float blocks as loaded whole and from the 512 rows of the mask block that start at the row offset
  of the grid point.
-/
import proofs.«413586_j51488067945127_3_alg».proof.Proof.Gen.KernelIdeal.Frame
import Idealize.ShloMosaic.Lib.Pipeline.Value
import Idealize.ShloMosaic.Lib.Tactic

set_option maxRecDepth 16384

noncomputable section

namespace Cert.KernelIdeal.Piece

open Cert.KernelIdeal Cert.KernelIdeal.Gen Idealize.ShloMosaic Idealize.ShloMosaic.TcCoe Idealize.SL.Sem

variable {F : FTy → Type} [FloatOps F] [Named F]

theorem zero_offsets : (![0, 0, 0, 0] : Fin 4 → Nat) = fun _ => 0 := funext fun a => by fin_cases a <;> rfl

/-- The staging buffer of the output after the body: the stored value over the loaded blocks. -/
theorem out_eq (c : Dev nD) (i : grid0.Coords) (a3 : Memref sig .tc .vmem S1x1x512x64 .f32) (h3 : a3.IsWhole)
    (a4 : Memref sig .tc .vmem S1x1x2048x64 .f32) (h4 : a4.IsWhole) (a5 : Memref sig .tc .vmem S1x1x2048x64 .f32) (h5 : a5.IsWhole)
    (a6 : Memref sig .tc .vmem S1x1x2048x2048 .i32) (h6 : a6.IsWhole) (a7 : Memref sig .tc .vmem S1x1x512x64 .f32) (h7 : a7.IsWhole)
    (x0 : Vec F S1x1x512x64 .f32) (x1 : Vec F S1x1x2048x64 .f32) (x2 : Vec F S1x1x2048x64 .f32) (x3 : Vec F S1x1x2048x2048 .i32) :
    out0_A_4 c i a3 h3 a4 h4 a5 h5 a6 h6 a7 h7 x0 x1 x2 x3
      = k0_pay1 x0 x1 x2 (View.ld x3 (Rect.unit (s := S1x1x2048x2048) (k0_off1 i) S1x1x512x2048.size (k0_off1_inb i))) := by
  unfold out0_A_4
  rw [View.read_writes_eq_canon _ _ _ (cover0_A_4 c i a3 h3 a4 h4 a5 h5 a6 h6 a7 h7 x0 x1 x2 x3)]
  unfold kernelRun0_A
  dsimp only
  sl_unfold_words
  rw [View.canon_unit_zero zero_offsets]
  simp only [View.readAt_eq_ld, h3.read_unread, h4.read_unread, h5.read_unread, h6.read_unread,
    View.ld_unit_zero (S := S1x1x512x64) zero_offsets, View.ld_unit_zero (S := S1x1x2048x64) zero_offsets]

end Cert.KernelIdeal.Piece

end
-- ==== Proof.Spec.lean ====
/-
  Masked scaled-dot-product attention without a running maximum, as one function of the four argument arrays.

  For batch `b`, head `h`, query row `i` and key row `j`, the score is `⊥` where the mask word at `(b, 0, i, j)` is
  zero and otherwise the dot product over the 64 features of the query row scaled by `1/8` with the key row. The
  output at `(b, h, i, d)` is the sum over the 2048 keys of `e^score` times the value entry `(b, h, j, d)`, divided by
  the sum over the keys of `e^score`.
-/
import Idealize.ShloMosaic.PureOps.Ideal
import Idealize.ShloMosaic.Lib.ValueIdx

noncomputable section

namespace Cert.Attention

open Idealize.ShloMosaic Idealize.ShloMosaic.ValueIdx

/-- The shape of the queries, keys, values and of the result: batch × head × row × feature. -/
abbrev Sqkv : Shape := ⟨4, ![2, 16, 2048, 64]⟩
/-- The shape of the mask: batch × 1 × query row × key row. -/
abbrev Smask : Shape := ⟨4, ![2, 1, 2048, 2048]⟩

/-- The masked score of query row `i` against key row `j` in head `(b, h)`. -/
def score (q k : Sqkv.Idx → EReal) (msk : Smask.Idx → BitVec 32) (b : Fin 2) (h : Fin 16) (i j : Fin 2048) : EReal :=
  if msk (ix4 b (0 : Fin 1) i j) = 0#32 then ⊥
  else ∑ d : Fin 64, (q (ix4 b h i d) * ((1 / 8 : ℝ) : EReal)) * k (ix4 b h j d)

/-- The attention output at explicit coordinates. -/
def attnAt (q k v : Sqkv.Idx → EReal) (msk : Smask.Idx → BitVec 32) (b : Fin 2) (h : Fin 16) (i : Fin 2048)
    (d : Fin 64) : EReal :=
  Ideal.div (∑ j : Fin 2048, Ideal.exp (score q k msk b h i j) * v (ix4 b h j d))
    (∑ j : Fin 2048, Ideal.exp (score q k msk b h i j))

/-- The attention output as a whole array. -/
def attn (q k v : Sqkv.Idx → EReal) (msk : Smask.Idx → BitVec 32) : Sqkv.Idx → EReal :=
  fun y => attnAt q k v msk (y 0) (y 1) (y 2) (y 3)

theorem attn_apply (q k v : Sqkv.Idx → EReal) (msk : Smask.Idx → BitVec 32) (b : Fin 2) (h : Fin 16) (i : Fin 2048)
    (d : Fin 64) : attn q k v msk (ix4 b h i d) = attnAt q k v msk b h i d := rfl

end Cert.Attention

end
-- ==== Proof.SoftmaxLaw.lean ====
/-
  Softmax-weighted averages on the extended reals.

  A row of attention scores is a family `s k` of extended reals below `⊤`: a real where the key is visible, `⊥`
  where it is masked. Its exponentials `e^(s k)` are non-negative reals (`e^⊥ = 0`), and when at least one key is
  visible their sum is a positive real. Two ways of forming the weighted average of real values `w k` then agree:
  dividing the weighted sum of the raw exponentials by their sum once, and summing the values against the
  normalised exponentials of the scores shifted by any real `μ` (the row maximum, in a numerically stable
  softmax): the factor `e^(-μ)` cancels between numerator and denominator because the denominator is a
  positive real. The row maximum itself is a real for the same reason. The scaling of a dot product by `1/8`
  before the sum equals the division of the sum by `8` because every term is real.
-/
import Idealize.ShloMosaic.PureOps.Ideal

noncomputable section

namespace Cert.SoftmaxLaw

open Idealize.ShloMosaic

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of an extended real below `⊤` is a non-negative real `a`, positive unless the argument is
    `⊥`; shifting the argument down by a real `μ` multiplies it by `e^(-μ)`. -/
theorem exp_eq_coe {x : EReal} (hx : x ≠ ⊤) :
    ∃ a : ℝ, 0 ≤ a ∧ (x ≠ ⊥ → 0 < a) ∧ Ideal.exp x = (a : EReal)
      ∧ ∀ μ : ℝ, Ideal.exp (x - (μ : EReal)) = ((a * Real.exp (-μ) : ℝ) : EReal) := by
  induction x using EReal.rec with
  | bot =>
    refine ⟨0, le_rfl, fun h => absurd rfl h, by simp, fun μ => ?_⟩
    rw [EReal.bot_sub, Ideal.exp_bot, zero_mul, EReal.coe_zero]
  | top => exact absurd rfl hx
  | coe r =>
    refine ⟨Real.exp r, (Real.exp_pos r).le, fun _ => Real.exp_pos r, Ideal.exp_coe r, fun μ => ?_⟩
    rw [← EReal.coe_sub, Ideal.exp_coe, sub_eq_add_neg, Real.exp_add]

/-- The weighted average by shifted, normalised exponentials is the quotient of the raw weighted sum by the raw
    sum, when no score is `⊤`, some score is not `⊥`, and the values and the shift are real. -/
theorem normalised_eq_quotient {K : Type} [Fintype K] (s : K → EReal) (w : K → ℝ) (μ : ℝ)
    (hs : ∀ k, s k ≠ ⊤) (h0 : ∃ k, s k ≠ ⊥) :
    (∑ k, Ideal.div (Ideal.exp (s k - (μ : EReal))) (∑ j, Ideal.exp (s j - (μ : EReal))) * (w k : EReal))
      = Ideal.div (∑ k, Ideal.exp (s k) * (w k : EReal)) (∑ k, Ideal.exp (s k)) := by
  choose a ha0 hapos hae hasub using fun k => exp_eq_coe (hs k)
  obtain ⟨k0, hk0⟩ := h0
  have hA : 0 < ∑ k, a k :=
    Finset.sum_pos' (fun k _ => ha0 k) ⟨k0, Finset.mem_univ _, hapos k0 hk0⟩
  have hc : 0 < Real.exp (-μ) := Real.exp_pos _
  have hB : (∑ j, a j * Real.exp (-μ)) = (∑ j, a j) * Real.exp (-μ) := (Finset.sum_mul _ _ _).symm
  have hBne : (∑ j, a j * Real.exp (-μ)) ≠ 0 := by rw [hB]; exact (mul_pos hA hc).ne'
  simp only [hae, hasub, ← EReal.coe_mul, ← coe_sum]
  rw [Ideal.div_coe hA.ne']
  simp only [Ideal.div_coe hBne, ← EReal.coe_mul, ← coe_sum]
  refine congrArg _ ?_
  rw [Finset.sum_mul]
  refine Finset.sum_congr rfl fun k _ => ?_
  rw [hB]
  field_simp

/-- The maximum of a row of scores, folded from `⊥`, is a real when no score is `⊤` and some score is not `⊥`. -/
theorem fold_max_real {K : Type} [Fintype K] (s : K → EReal) (hs : ∀ k, s k ≠ ⊤) (h0 : ∃ k, s k ≠ ⊥) :
    ∃ μ : ℝ, (Finset.univ : Finset K).fold max ⊥ s = (μ : EReal) := by
  obtain ⟨k0, hk0⟩ := h0
  have hlt : (Finset.univ : Finset K).fold max ⊥ s < ⊤ :=
    (Finset.fold_max_lt _).2 ⟨bot_lt_top, fun k _ => lt_top_iff_ne_top.2 (hs k)⟩
  have hgt : ⊥ < (Finset.univ : Finset K).fold max ⊥ s :=
    lt_of_lt_of_le (bot_lt_iff_ne_bot.2 hk0) ((Finset.le_fold_max _).2 (Or.inr ⟨k0, Finset.mem_univ _, le_rfl⟩))
  exact ⟨_, (EReal.coe_toReal hlt.ne hgt.ne').symm⟩

/-- A dot product of reals scaled by `1/8` term by term is the dot product divided by `8`. -/
theorem scaled_dot {D : Type} [Fintype D] (x y : D → ℝ) :
    Ideal.div (∑ d, (x d : EReal) * (y d : EReal)) ((8 : ℝ) : EReal)
      = ∑ d, ((x d : EReal) * ((1 / 8 : ℝ) : EReal)) * (y d : EReal) := by
  rw [Ideal.div_coe (by norm_num)]
  simp only [← EReal.coe_mul, ← coe_sum]
  refine congrArg _ ?_
  rw [Finset.sum_mul]
  exact Finset.sum_congr rfl fun d _ => by ring

/-! ## The constants of the two programs -/

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `-inf` denotes `⊥`. -/
theorem ofBits_neg_inf : Ideal.ofBits .f32 0xFF800000#32 = ⊥ := by
  simp [Ideal.ofBits, Ideal.ieee]

/-- The square root of `64` is `8`. -/
theorem sqrt_64 : Ideal.sqrt ((64 : ℝ) : EReal) = ((8 : ℝ) : EReal) := by
  rw [Ideal.sqrt_coe, if_neg (by norm_num), show (64 : ℝ) = 8 ^ 2 by norm_num, Real.sqrt_sq (by norm_num)]

end Cert.SoftmaxLaw

end
-- ==== Proof.KernelBlock.lean ====
/-
  What the kernel body stores for one grid point, entry by entry.

  The body receives a block of 512 query rows, the 2048 key rows and value rows of one head, and the 512 × 2048 slab of
  mask words of its query rows. It scales the queries by `1/8`, multiplies them against the keys (a sum over the 64
  features), replaces the products by `⊥` where the mask word is zero, exponentiates, sums each row, multiplies the
  exponentials against the values (a sum over the 2048 keys) and divides by the row sums. Read at row `r` and
  feature `d` this is the attention function of `Spec.lean` at the corresponding entry of the whole arrays, once
  each block is known to be the matching part of its array.
-/
import proofs.«413586_j51488067945127_3_alg».proof.Proof.Gen.KernelIdeal.Skeleton
import proofs.«413586_j51488067945127_3_alg».proof.Proof.Spec
import proofs.«413586_j51488067945127_3_alg».proof.Proof.SoftmaxLaw
import Idealize.ShloMosaic.Lib.Pipeline.Value
import Idealize.ShloMosaic.Lib.ValueIdx
import Idealize.ShloMosaic.Lib.StableHlo.Predicate
import Idealize.ShloMosaic.PureOps.Ideal.Laws
import Idealize.ShloMosaic.PureOps.IdealRules

noncomputable section

namespace Cert.KernelIdeal.Block

open Cert.KernelIdeal Cert.KernelIdeal.Gen Idealize.ShloMosaic Idealize.ShloMosaic.ValueIdx Cert.Attention

/-! ## Layout operations read at an index -/

section layout
variable {α : Type}

/-- A `[1, 1, a, b]` array cast to `[a, b]` reads, at `(p, q)`, the operand at `(0, 0, p, q)`. -/
theorem cast_11ab_ab {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An `[a, b]` array cast to `[1, 1, a, b]` reads, at `(u, v, p, q)`, the operand at `(p, q)`. -/
theorem cast_ab_11ab {a b : ℕ} (x : (⟨2, ![a, b]⟩ : Shape).Idx → α)
    (h : (⟨2, ![a, b]⟩ : Shape).ShapeCasts ⟨4, ![1, 1, a, b]⟩) (u v : Fin 1) (p : Fin a) (q : Fin b) :
    shapeCast ⟨4, ![1, 1, a, b]⟩ x h (ix4 u v p q) = x (ix2 p q) :=
  shapeCast_apply x h _ _ (by
    have hu : u.val = 0 := by omega
    have hv : v.val = 0 := by omega
    rw [Shape.rowMajor_val_four, Shape.rowMajor_val_two]
    show p.val * b + q.val = ((u.val * 1 + v.val) * a + p.val) * b + q.val
    rw [hu, hv]
    simp only [Nat.zero_mul, Nat.zero_add])

/-- A vector kept as a column reads, at `(p, u)`, the vector at `p`. -/
theorem cast_a_a1 {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column of 512 entries laid along 64 lanes reads, at `(p, q)`, the column at `(p, 0)`. -/
theorem bcast_col (x : (⟨2, ![512, 1]⟩ : Shape).Idx → α) (h : (⟨2, ![512, 1]⟩ : Shape).Broadcasts ⟨2, ![512, 64]⟩)
    (p : Fin 512) (q : Fin 64) : broadcastTo ⟨2, ![512, 64]⟩ x h (ix2 p q) = x (ix2 p (0 : Fin 1)) :=
  broadcastTo_apply x h _ _ (fun a' => match a' with
    | ⟨0, _⟩ => by show p.val = if (512 : Nat) = 1 then 0 else p.val; rw [if_neg (by decide)]
    | ⟨1, _⟩ => by show 0 = if (1 : Nat) = 1 then 0 else q.val; rw [if_pos rfl])

end layout

/-! ## The two matrix products and the row sum -/

theorem qk_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Queries against keys: entry `(r, j)` is the sum over the features of query row `r` times key row `j`. -/
theorem qk_apply (a : FVec Ideal S512x64 .bf16) (b : FVec Ideal S2048x64 .bf16) (r : Fin 512) (j : Fin 2048) :
    matmul dot_S512x64_S2048x64_S512x2048_1_1_0_0_n_n none a b (constant S512x2048 .f32 0x00000000#32) (ix2 r j)
      = ∑ d : Fin 64, a (ix2 r d) * b (ix2 j d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 r j) ((ValueIdx.contrEquiv1 dot_S512x64_S2048x64_S512x2048_1_1_0_0_n_n 64 rfl rfl).symm k) = ix2 r k := funext fun a => Fin.ext (by
    match a with
    | ⟨0, _⟩ => exact qk_lhs_0 _ _
    | ⟨1, _⟩ => exact (qk_lhs_1 _ _).trans hk)
  have er : dot_S512x64_S2048x64_S512x2048_1_1_0_0_n_n.rhsIdx (ix2 r j) ((ValueIdx.contrEquiv1 dot_S512x64_S2048x64_S512x2048_1_1_0_0_n_n 64 rfl rfl).symm k) = ix2 j k := funext fun a => Fin.ext (by
    match a with
    | ⟨0, _⟩ => exact qk_rhs_0 _ _
    | ⟨1, _⟩ => exact (qk_rhs_1 _ _).trans hk)
  rw [el, er]

theorem pv_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Exponentials against values: entry `(r, d)` is the sum over the keys of entry `(r, j)` times value row `j` at `d`. -/
theorem pv_apply (a : FVec Ideal S512x2048 .bf16) (b : FVec Ideal S2048x64 .bf16) (r : Fin 512) (d : Fin 64) :
    matmul dot_S512x2048_S2048x64_S512x64_1_0_0_1_n_n none a b (constant S512x64 .f32 0x00000000#32) (ix2 r d)
      = ∑ j : Fin 2048, a (ix2 r j) * b (ix2 j d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact pv_lhs_0 _ _
    | ⟨1, _⟩ => exact (pv_lhs_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (pv_rhs_0 _ _).trans hk
    | ⟨1, _⟩ => exact pv_rhs_1 _ _)
  rw [el, er]

/-- The sum of a 512 × 2048 array along its rows, at row `r`. -/
theorem rowsum_apply (e : FVec Ideal S512x2048 .f32) (h : S512x2048.Reduces [1] S512) (hφ : FKind.Formats .f32)
    (hacc : (0x00000000#32 : BitVec 32) = FKind.add.neutral .f32 hφ) (r : Fin 512) :
    multiReduction .add [1] S512 e 0x00000000#32 h hφ hacc (ix1 r) = ∑ j : Fin 2048, e (ix2 r j) := by
  refine (Ideal.multiReduction_add_single e 0x00000000#32 h hφ hacc (ix1 r)).trans ?_
  refine Finset.sum_congr rfl fun j _ => congrArg e ?_
  funext a
  apply Fin.ext
  match a with
  | ⟨0, _⟩ => rfl
  | ⟨1, _⟩ => rfl

/-! ## The body's stored value, stage by stage -/

/-- The query block scaled by `1/8`. -/
def scaledQueries (x0 : Vec Ideal S1x1x512x64 .f32) : FVec Ideal S512x64 .bf16 :=
  truncf .bf16 (mulf (shapeCast S512x64 x0 shapeCasts_S1x1x512x64_S512x64) (broadcast S512x64 (Scalar.ofBits .f32 0x3E000000#32))) bitsLt_bf16_f32

/-- A key or value block as a 2048 × 64 matrix. -/
def rowsOf (x : Vec Ideal S1x1x2048x64 .f32) : FVec Ideal S2048x64 .bf16 :=
  truncf .bf16 (shapeCast S2048x64 x shapeCasts_S1x1x2048x64_S2048x64) bitsLt_bf16_f32

/-- The scores of the block's query rows against every key, `⊥` where the mask word is zero. -/
def maskedScores (x0 : Vec Ideal S1x1x512x64 .f32) (x1 : Vec Ideal S1x1x2048x64 .f32) (x15 : Vec Ideal S1x1x512x2048 .i32) :
    FVec Ideal S512x2048 .f32 :=
  select (cmpi .eq (shapeCast S512x2048 x15 shapeCasts_S1x1x512x2048_S512x2048) (broadcast S512x2048 0#32))
    (broadcast S512x2048 (Named.named κ "neg_big" 0xFF333332#32))
    (matmul dot_S512x64_S2048x64_S512x2048_1_1_0_0_n_n none (scaledQueries x0) (rowsOf x1) (constant S512x2048 .f32 0x00000000#32))

/-- Their exponentials. -/
def weights (x0 : Vec Ideal S1x1x512x64 .f32) (x1 : Vec Ideal S1x1x2048x64 .f32) (x15 : Vec Ideal S1x1x512x2048 .i32) :
    FVec Ideal S512x2048 .f32 :=
  exp (maskedScores x0 x1 x15)

/-- The stored value is the weighted values divided by the row sums of the weights. -/
theorem pay_eq (x0 : Vec Ideal S1x1x512x64 .f32) (x1 x2 : Vec Ideal S1x1x2048x64 .f32) (x15 : Vec Ideal S1x1x512x2048 .i32) :
    k0_pay1 (F := Ideal) x0 x1 x2 x15
      = shapeCast S1x1x512x64
          (divf (matmul dot_S512x2048_S2048x64_S512x64_1_0_0_1_n_n none (truncf .bf16 (weights x0 x1 x15) bitsLt_bf16_f32) (rowsOf x2) (constant S512x64 .f32 0x00000000#32))
            (broadcastTo S512x64
              (shapeCast S512x1 (multiReduction .add [1] S512 (weights x0 x1 x15) 0x00000000#32 reduces_S512x2048_S512 (.inl rfl) rfl) shapeCasts_S512_S512x1)
              broadcasts_S512x1_S512x64))
          shapeCasts_S512x64_S1x1x512x64 := rfl

theorem scaledQueries_apply (x0 : Vec Ideal S1x1x512x64 .f32) (r : Fin 512) (d : Fin 64) :
    scaledQueries x0 (ix2 r d) = x0 (ix4 (0 : Fin 1) (0 : Fin 1) r d) * ((1 / 8 : ℝ) : EReal) := by
  show shapeCast S512x64 x0 shapeCasts_S1x1x512x64_S512x64 (ix2 r d) * Ideal.ofBits .f32 0x3E000000#32 = _
  rw [cast_11ab_ab, Cert.SoftmaxLaw.ofBits_eighth]

theorem rowsOf_apply (x : Vec Ideal S1x1x2048x64 .f32) (j : Fin 2048) (d : Fin 64) :
    rowsOf x (ix2 j d) = x (ix4 (0 : Fin 1) (0 : Fin 1) j d) :=
  cast_11ab_ab x shapeCasts_S1x1x2048x64_S2048x64 j d

/-- The named fill value denotes `⊥`. -/
theorem neg_big_eq : Named.named (F := Ideal) κ "neg_big" (φ := .f32) 0xFF333332#32 = (⊥ : EReal) :=
  IdealRules.named_const.ideal_named_scalar _ _ _ _ rfl

theorem maskedScores_apply (x0 : Vec Ideal S1x1x512x64 .f32) (x1 : Vec Ideal S1x1x2048x64 .f32) (x15 : Vec Ideal S1x1x512x2048 .i32)
    (r : Fin 512) (j : Fin 2048) :
    maskedScores x0 x1 x15 (ix2 r j)
      = if x15 (ix4 (0 : Fin 1) (0 : Fin 1) r j) = 0#32 then ⊥
        else ∑ d : Fin 64, (x0 (ix4 (0 : Fin 1) (0 : Fin 1) r d) * ((1 / 8 : ℝ) : EReal)) * x1 (ix4 (0 : Fin 1) (0 : Fin 1) j d) := by
  unfold maskedScores
  rw [select_apply, qk_apply]
  simp only [scaledQueries_apply, rowsOf_apply]
  show Scalar.select (IntOp.cmpi .eq (shapeCast S512x2048 x15 shapeCasts_S1x1x512x2048_S512x2048 (ix2 r j)) 0#32)
    (Named.named (F := Ideal) κ "neg_big" (φ := .f32) 0xFF333332#32) _ = _
  rw [cast_11ab_ab, neg_big_eq]
  by_cases hw : x15 (ix4 (0 : Fin 1) (0 : Fin 1) r j) = 0#32
  · rw [if_pos hw, StableHlo.Predicate.cmpi_eq_iff.2 hw, select_one]
  · rw [if_neg hw, eq_zero_of_ne_one (fun hc => hw (StableHlo.Predicate.cmpi_eq_iff.1 hc)), select_zero]

theorem weights_apply (x0 : Vec Ideal S1x1x512x64 .f32) (x1 : Vec Ideal S1x1x2048x64 .f32) (x15 : Vec Ideal S1x1x512x2048 .i32)
    (i : S512x2048.Idx) : weights x0 x1 x15 i = Ideal.exp (maskedScores x0 x1 x15 i) := rfl

/-- The stored value at row `r`, feature `d`. -/
theorem pay_apply (x0 : Vec Ideal S1x1x512x64 .f32) (x1 x2 : Vec Ideal S1x1x2048x64 .f32) (x15 : Vec Ideal S1x1x512x2048 .i32)
    (r : Fin 512) (d : Fin 64) :
    k0_pay1 (F := Ideal) x0 x1 x2 x15 (ix4 (0 : Fin 1) (0 : Fin 1) r d)
      = Ideal.div (∑ j : Fin 2048, Ideal.exp (maskedScores x0 x1 x15 (ix2 r j)) * x2 (ix4 (0 : Fin 1) (0 : Fin 1) j d))
          (∑ j : Fin 2048, Ideal.exp (maskedScores x0 x1 x15 (ix2 r j))) := by
  rw [pay_eq, cast_ab_11ab, divf_apply, pv_apply, bcast_col, cast_a_a1]
  refine congrArg₂ Ideal.div ?_ ?_
  · simp only [rowsOf_apply, truncf_apply, weights_apply]
  · exact (rowsum_apply (weights x0 x1 x15) _ _ _ r).trans (Finset.sum_congr rfl fun j _ => weights_apply x0 x1 x15 (ix2 r j))

/-- When the four blocks are the matching parts of whole arrays — query rows `row r` of head `(b, h)`, all keys and
    values of that head, the mask words of batch `b` at those query rows — the stored value is the attention function. -/
theorem block_eq (A0 A1 A2 : Sqkv.Idx → EReal) (A3 : Smask.Idx → BitVec 32)
    (x0 : Vec Ideal S1x1x512x64 .f32) (x1 x2 : Vec Ideal S1x1x2048x64 .f32) (x15 : Vec Ideal S1x1x512x2048 .i32)
    (b : Fin 2) (h : Fin 16) (row : Fin 512 → Fin 2048)
    (h0 : ∀ (r : Fin 512) (d : Fin 64), x0 (ix4 (0 : Fin 1) (0 : Fin 1) r d) = A0 (ix4 b h (row r) d))
    (h1 : ∀ (j : Fin 2048) (d : Fin 64), x1 (ix4 (0 : Fin 1) (0 : Fin 1) j d) = A1 (ix4 b h j d))
    (h2 : ∀ (j : Fin 2048) (d : Fin 64), x2 (ix4 (0 : Fin 1) (0 : Fin 1) j d) = A2 (ix4 b h j d))
    (h3 : ∀ (r : Fin 512) (j : Fin 2048), x15 (ix4 (0 : Fin 1) (0 : Fin 1) r j) = A3 (ix4 b (0 : Fin 1) (row r) j))
    (r : Fin 512) (d : Fin 64) :
    k0_pay1 (F := Ideal) x0 x1 x2 x15 (ix4 (0 : Fin 1) (0 : Fin 1) r d) = attnAt A0 A1 A2 A3 b h (row r) d := by
  rw [pay_apply]
  unfold attnAt score
  simp only [maskedScores_apply, h0, h1, h2, h3]

end Cert.KernelIdeal.Block

end
-- ==== Proof.KernelValue.lean ====
/-
  The kernel's result array is the attention function of its argument arrays.

  Grid point `t` has coordinates (batch `b`, head `h`, query chunk `q`). Its query block is rows `512 q … 512 q + 511`
  of head `(b, h)`, its key and value blocks are all rows of that head, its mask block is all of batch `b`, of which
  the body loads the 512 rows starting at `512 q`; its output block is rows `512 q …` of head `(b, h)` of the result.
  So what the point writes back is the attention function restricted to its block, and the 128 blocks tile the result.
-/
import proofs.«413586_j51488067945127_3_alg».proof.Proof.Gen.KernelIdeal.Value
import proofs.«413586_j51488067945127_3_alg».proof.Proof.KernelPiece
import proofs.«413586_j51488067945127_3_alg».proof.Proof.KernelBlock

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (ρ : Dev nD → PrngReg)

/-- The block indices of the five windows and the mask load's offsets, in terms of the output window's block index;
    decided over the 128 grid points. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = win0_4.index t (2 : Fin 4) ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 4) = win0_4.index t (0 : Fin 4) ∧ win0_3.index t (1 : Fin 4) = 0
    ∧ win0_3.index t (2 : Fin 4) = 0 ∧ win0_3.index t (3 : Fin 4) = 0
    ∧ k0_off1 (grid0.coords t) (0 : Fin 4) = 0 ∧ k0_off1 (grid0.coords t) (1 : Fin 4) = 0
    ∧ k0_off1 (grid0.coords t) (2 : Fin 4) = win0_4.index t (2 : Fin 4) * 512 ∧ k0_off1 (grid0.coords t) (3 : Fin 4) = 0
    ∧ win0_4.index t (0 : Fin 4) < 2 ∧ win0_4.index t (1 : Fin 4) < 16 ∧ win0_4.index t (2 : Fin 4) < 4
    ∧ win0_4.index t (3 : Fin 4) = 0 :=
  (by decide +kernel : ∀ t : Fin grid0.N, _)

/-- Every (batch, head, chunk) is some point's output block. -/
theorem idx_onto : ∀ (q0 : Fin 2) (q1 : Fin 16) (q2 : Fin 4), ∃ t : Fin cfg0.N, win0_4.index t = ![q0.val, q1.val, q2.val, 0] :=
  (by decide +kernel : ∀ (q0 : Fin 2) (q1 : Fin 16) (q2 : Fin 4), ∃ t : Fin grid0.N, win0_4.index t = ![q0.val, q1.val, q2.val, 0])

/-- The four input blocks of point `t`, typed by their literal shapes. -/
abbrev qblk (c : Dev nD) (t : Fin cfg0.N) : Vec Ideal S1x1x512x64 .f32 := iblk m c 0 t
abbrev kblk (c : Dev nD) (t : Fin cfg0.N) : Vec Ideal S1x1x2048x64 .f32 := iblk m c 1 t
abbrev vblk (c : Dev nD) (t : Fin cfg0.N) : Vec Ideal S1x1x2048x64 .f32 := iblk m c 2 t
abbrev mblk (c : Dev nD) (t : Fin cfg0.N) : Vec Ideal S1x1x2048x2048 .i32 := iblk m c 3 t

/-- The argument arrays as the region finds them, typed by their literal shapes. -/
abbrev qarr (c : Dev nD) : Sqkv.Idx → EReal := V m c main_arg0
abbrev karr (c : Dev nD) : Sqkv.Idx → EReal := V m c main_arg1
abbrev varr (c : Dev nD) : Sqkv.Idx → EReal := V m c main_arg2
abbrev marr (c : Dev nD) : Smask.Idx → BitVec 32 := V m c main_arg3

/-- The stored value at a block index `y`, under the hypotheses of `Block.block_eq`. -/
theorem block_at (A0 A1 A2 : Sqkv.Idx → EReal) (A3 : Smask.Idx → BitVec 32)
    (x0 : Vec Ideal S1x1x512x64 .f32) (x1 x2 : Vec Ideal S1x1x2048x64 .f32) (x15 : Vec Ideal S1x1x512x2048 .i32)
    (b : Fin 2) (h : Fin 16) (row : Fin 512 → Fin 2048)
    (h0 : ∀ (r : Fin 512) (d : Fin 64), x0 (ix4 (0 : Fin 1) (0 : Fin 1) r d) = A0 (ix4 b h (row r) d))
    (h1 : ∀ (j : Fin 2048) (d : Fin 64), x1 (ix4 (0 : Fin 1) (0 : Fin 1) j d) = A1 (ix4 b h j d))
    (h2 : ∀ (j : Fin 2048) (d : Fin 64), x2 (ix4 (0 : Fin 1) (0 : Fin 1) j d) = A2 (ix4 b h j d))
    (h3 : ∀ (r : Fin 512) (j : Fin 2048), x15 (ix4 (0 : Fin 1) (0 : Fin 1) r j) = A3 (ix4 b (0 : Fin 1) (row r) j))
    (y : S1x1x512x64.Idx) :
    k0_pay1 (F := Ideal) x0 x1 x2 x15 y = attnAt A0 A1 A2 A3 b h (row (y 2)) (y 3) := by
  obtain ⟨u, v, r, d, rfl⟩ : ∃ (u v : Fin 1) (r : Fin 512) (d : Fin 64), y = ix4 u v r d := ⟨y 0, y 1, y 2, y 3, eq_ix4 y⟩
  obtain rfl : u = 0 := Subsingleton.elim _ _
  obtain rfl : v = 0 := Subsingleton.elim _ _
  exact Block.block_eq A0 A1 A2 A3 x0 x1 x2 x15 b h row h0 h1 h2 h3 r d

/-- WHAT POINT `t` WRITES BACK is block `t` of the attention function of the argument arrays. -/
theorem flushed_eq (c : Dev nD) (t : Fin cfg0.N) :
    (dats m 0 c).flushed 4 t
      = ((cfg0.win 4).blk t).view.read (Elt Ideal) (attn (qarr m c) (karr m c) (varr m c) (marr m c)) := by
  obtain ⟨e00, e01, e02, e03, e10, e11, e12, e13, e20, e21, e22, e23, e30, e31, e32, e33, o0, o1, o2, o3, b0, b1, b2, b3⟩ :=
    idx_facts t
  rw [Value.flushed4_A]
  funext y
  show out0_A_4 c (grid0.coords t) (ms0_0 t) (hs0_0 t) (ms0_1 t) (hs0_1 t) (ms0_2 t) (hs0_2 t) (ms0_3 t) (hs0_3 t) (ms0_4 t) (hs0_4 t)
      (qblk m c t) (kblk m c t) (vblk m c t) (mblk m c t) y
    = attn (qarr m c) (karr m c) (varr m c) (marr m c) (((cfg0.win 4).blk t).view.emb y)
  refine (congrFun (Piece.out_eq (F := Ideal) c (grid0.coords t) (ms0_0 t) (hs0_0 t) (ms0_1 t) (hs0_1 t) (ms0_2 t) (hs0_2 t)
    (ms0_3 t) (hs0_3 t) (ms0_4 t) (hs0_4 t) (qblk m c t) (kblk m c t) (vblk m c t) (mblk m c t)) y).trans ?_
  have hy0 : (y 0).val < 1 := (y 0).isLt
  have hy1 : (y 1).val < 1 := (y 1).isLt
  have hy2 : (y 2).val < 512 := (y 2).isLt
  have hy3 : (y 3).val < 64 := (y 3).isLt
  refine (block_at (qarr m c) (karr m c) (varr m c) (marr m c) (qblk m c t) (kblk m c t) (vblk m c t)
    (View.ld (mblk m c t) (Rect.unit (s := S1x1x2048x2048) (k0_off1 (grid0.coords t)) S1x1x512x2048.size (k0_off1_inb (grid0.coords t))))
    ⟨win0_4.index t (0 : Fin 4), b0⟩ ⟨win0_4.index t (1 : Fin 4), b1⟩
    (fun r => ⟨win0_4.index t (2 : Fin 4) * 512 + r.val, by have := r.isLt; omega⟩) ?_ ?_ ?_ ?_ y).trans ?_
  · intro r d
    show V m c main_arg0 (((cfg0.win 0).blk t).view.emb (ix4 (0 : Fin 1) (0 : Fin 1) r d)) = V m c main_arg0 _
    refine congrArg _ (funext fun a => Fin.ext ?_)
    match a with
    | ⟨0, _⟩ => show win0_0.index t (0 : Fin 4) * 1 + 1 * 0 = win0_4.index t (0 : Fin 4); omega
    | ⟨1, _⟩ => show win0_0.index t (1 : Fin 4) * 1 + 1 * 0 = win0_4.index t (1 : Fin 4); omega
    | ⟨2, _⟩ => show win0_0.index t (2 : Fin 4) * 512 + 1 * r.val = win0_4.index t (2 : Fin 4) * 512 + r.val; omega
    | ⟨3, _⟩ => show win0_0.index t (3 : Fin 4) * 64 + 1 * d.val = d.val; omega
  · intro j d
    show V m c main_arg1 (((cfg0.win 1).blk t).view.emb (ix4 (0 : Fin 1) (0 : Fin 1) j d)) = V m c main_arg1 _
    refine congrArg _ (funext fun a => Fin.ext ?_)
    match a with
    | ⟨0, _⟩ => show win0_1.index t (0 : Fin 4) * 1 + 1 * 0 = win0_4.index t (0 : Fin 4); omega
    | ⟨1, _⟩ => show win0_1.index t (1 : Fin 4) * 1 + 1 * 0 = win0_4.index t (1 : Fin 4); omega
    | ⟨2, _⟩ => show win0_1.index t (2 : Fin 4) * 2048 + 1 * j.val = j.val; omega
    | ⟨3, _⟩ => show win0_1.index t (3 : Fin 4) * 64 + 1 * d.val = d.val; omega
  · intro j d
    show V m c main_arg2 (((cfg0.win 2).blk t).view.emb (ix4 (0 : Fin 1) (0 : Fin 1) j d)) = V m c main_arg2 _
    refine congrArg _ (funext fun a => Fin.ext ?_)
    match a with
    | ⟨0, _⟩ => show win0_2.index t (0 : Fin 4) * 1 + 1 * 0 = win0_4.index t (0 : Fin 4); omega
    | ⟨1, _⟩ => show win0_2.index t (1 : Fin 4) * 1 + 1 * 0 = win0_4.index t (1 : Fin 4); omega
    | ⟨2, _⟩ => show win0_2.index t (2 : Fin 4) * 2048 + 1 * j.val = j.val; omega
    | ⟨3, _⟩ => show win0_2.index t (3 : Fin 4) * 64 + 1 * d.val = d.val; omega
  · intro r j
    show V m c main_arg3 (((cfg0.win 3).blk t).view.emb
        ((Rect.unit (s := S1x1x2048x2048) (k0_off1 (grid0.coords t)) S1x1x512x2048.size (k0_off1_inb (grid0.coords t))).idx
          (ix4 (0 : Fin 1) (0 : Fin 1) r j))) = V m c main_arg3 _
    refine congrArg _ (funext fun a => Fin.ext ?_)
    match a with
    | ⟨0, _⟩ => show win0_3.index t (0 : Fin 4) * 1 + 1 * (k0_off1 (grid0.coords t) (0 : Fin 4) + 1 * 0) = win0_4.index t (0 : Fin 4); omega
    | ⟨1, _⟩ => show win0_3.index t (1 : Fin 4) * 1 + 1 * (k0_off1 (grid0.coords t) (1 : Fin 4) + 1 * 0) = 0; omega
    | ⟨2, _⟩ => show win0_3.index t (2 : Fin 4) * 2048 + 1 * (k0_off1 (grid0.coords t) (2 : Fin 4) + 1 * r.val) = win0_4.index t (2 : Fin 4) * 512 + r.val; omega
    | ⟨3, _⟩ => show win0_3.index t (3 : Fin 4) * 2048 + 1 * (k0_off1 (grid0.coords t) (3 : Fin 4) + 1 * j.val) = j.val; omega
  · show attnAt _ _ _ _ _ _ _ _ = attnAt _ _ _ _ ((((cfg0.win 4).blk t).view.emb y) 0) ((((cfg0.win 4).blk t).view.emb y) 1)
      ((((cfg0.win 4).blk t).view.emb y) 2) ((((cfg0.win 4).blk t).view.emb y) 3)
    have c0 : (⟨win0_4.index t (0 : Fin 4), b0⟩ : Fin 2) = (((cfg0.win 4).blk t).view.emb y) 0 :=
      Fin.ext (by show win0_4.index t (0 : Fin 4) = win0_4.index t (0 : Fin 4) * 1 + 1 * (y 0).val; omega)
    have c1 : (⟨win0_4.index t (1 : Fin 4), b1⟩ : Fin 16) = (((cfg0.win 4).blk t).view.emb y) 1 :=
      Fin.ext (by show win0_4.index t (1 : Fin 4) = win0_4.index t (1 : Fin 4) * 1 + 1 * (y 1).val; omega)
    have c2 : (⟨win0_4.index t (2 : Fin 4) * 512 + (y 2).val, by omega⟩ : Fin 2048) = (((cfg0.win 4).blk t).view.emb y) 2 :=
      Fin.ext (by show win0_4.index t (2 : Fin 4) * 512 + (y 2).val = win0_4.index t (2 : Fin 4) * 512 + 1 * (y 2).val; omega)
    have c3 : (y 3 : Fin 64) = (((cfg0.win 4).blk t).view.emb y) 3 :=
      Fin.ext (by show (y 3).val = win0_4.index t (3 : Fin 4) * 64 + 1 * (y 3).val; omega)
    rw [← c0, ← c1, ← c2, ← c3]

/-- An index of the result is in point `t`'s block iff each coordinate is in the block's range on its axis. -/
theorem mem_blk (t : Fin cfg0.N) (i : S2x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v0).slice (win0_4.rect t)).set ↔ _
  rw [View.set_slice_whole, Rect.mem_set_unit]
  exact Iff.rfl

/-- Every index of the result lies in the block of the point of its batch, head and chunk. -/
theorem covered (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- THE RESULT ARRAY after the run is the attention function of the argument arrays. -/
theorem final (c : Dev nD) :
    (dats m 0 c).arrAt 4 cfg0.N
      = attn (m ((c : Thread nD τ).loc main_arg0)) (m ((c : Thread nD τ).loc main_arg1))
          (m ((c : Thread nD τ).loc main_arg2)) (m ((c : Thread nD τ).loc main_arg3)) :=
  (dats m 0 c).arrAt_eq_of_cover 4 (attn (qarr m c) (karr m c) (varr m c) (marr m c)) (fun t _ => flushed_eq m c t) covered

/-- The run, read: the result array at the attention function of the arguments, the arguments unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.RefValue.lean ====
/-
  The reference's result is the attention function of its arguments, when the queries, keys and values are real and
  every query row of the mask has a visible key.
-/
import proofs.«413586_j51488067945127_3_alg».proof.Proof.Gen.ReferenceIdeal.Read
import proofs.«413586_j51488067945127_3_alg».proof.Proof.Spec
import proofs.«413586_j51488067945127_3_alg».proof.Proof.SoftmaxLaw

noncomputable section

namespace Cert.RefValue

open Idealize.ShloMosaic Idealize.ShloMosaic.ValueIdx Cert.Attention

open Cert.ReferenceIdeal Cert.ReferenceIdeal.Read Cert.SoftmaxLaw

/-! ## Selecting on an equality test -/

/-- A select on the bit of an equality test is the if-then-else on the equality. -/
theorem select_cmpi_eq {α : Type} {w : Nat} (a b : BitVec w) (x y : α) :
    Scalar.select (IntOp.cmpi .eq a b) x y = if a = b then x else y := by
  by_cases h : a = b
  · have e : IntOp.cmpi .eq a b = 1#1 := by simp [IntOp.cmpi, h]
    rw [if_pos h, e, select_one]
  · have hb : (a == b) = false := beq_eq_false_iff_ne.mpr h
    have e : IntOp.cmpi .eq a b = 0#1 := by simp only [IntOp.cmpi, hb]; rfl
    rw [if_neg h, e, select_zero]

/-! ## The scores -/

/-- The unscaled score of query row `i` against key row `j` is the dot product over the 64 features. -/
theorem dot_at (x0 x1 : Sqkv.Idx → EReal) (b : Fin 2) (h : Fin 16) (i j : Fin 2048) :
    val_main_v0 (F := Ideal) x0 x1 (ix4 b h i j) = ∑ d : Fin 64, x0 (ix4 b h i d) * x1 (ix4 b h j d) := by
  rw [val_main_v0_apply]
  refine Finset.sum_congr rfl fun d _ => ?_
  have el : lidx_main_v0 (ix4 b h i j) d = ix4 b h i d :=
    funext fun a => Fin.ext (by match a with | ⟨0, _⟩ => rfl | ⟨1, _⟩ => rfl | ⟨2, _⟩ => rfl | ⟨3, _⟩ => rfl)
  have er : ridx_main_v0 (ix4 b h i j) d = ix4 b h j d :=
    funext fun a => Fin.ext (by match a with | ⟨0, _⟩ => rfl | ⟨1, _⟩ => rfl | ⟨2, _⟩ => rfl | ⟨3, _⟩ => rfl)
  rw [el, er]

/-- The divisor of every score is the square root of 64, which is 8. -/
theorem scale_at (y : S2x16x2048x2048.Idx) : val_main_v2 (F := Ideal) y = ((8 : ℝ) : EReal) := by
  rw [val_main_v2_apply, val_main_v1_apply, val_main_cst_apply, Ideal.hostUnary_sqrt_def, Ideal.ofBits_def,
    ofBits_64, sqrt_64]

section Real

variable (x0 x1 x2 : Sqkv.Idx → EReal) (x3 : Smask.Idx → BitVec 32) (r0 r1 r2 : Sqkv.Idx → ℝ)
  (hr0 : ∀ y, x0 y = (r0 y : EReal)) (hr1 : ∀ y, x1 y = (r1 y : EReal)) (hr2 : ∀ y, x2 y = (r2 y : EReal))

include hr0 hr1 in
/-- The reference's masked, scaled score at `(b, h, i, j)` is the specification's score: `⊥` where the mask word is
    zero, and otherwise the dot product divided by 8, which is the term-by-term scaling by 1/8 because the queries
    and keys are real. -/
theorem score_at (b : Fin 2) (h : Fin 16) (i j : Fin 2048) :
    val_main_v6 (F := Ideal) x0 x1 x3 (ix4 b h i j) = score x0 x1 x3 b h i j := by
  have em : idx_main_call0_v1 (ix4 b h i j) = ix4 b (0 : Fin 1) i j :=
    funext fun a => Fin.ext (by match a with | ⟨0, _⟩ => rfl | ⟨1, _⟩ => rfl | ⟨2, _⟩ => rfl | ⟨3, _⟩ => rfl)
  rw [val_main_v6_apply, val_main_call0_v1_apply, val_main_v5_apply, val_main_v4_apply, val_main_c_apply, em,
    select_cmpi_eq, val_main_call0_v2_apply, val_main_call0_v0_apply, val_main_cst_0_apply, Ideal.ofBits_def,
    ofBits_neg_inf, val_main_v3_apply, Ideal.hostDivf_def, dot_at, scale_at]
  unfold score
  simp only [hr0, hr1]
  rw [scaled_dot]

include hr0 hr1 in
/-- No score is `⊤`: a score is `⊥` or a real. -/
theorem score_ne_top (b : Fin 2) (h : Fin 16) (i j : Fin 2048) : score x0 x1 x3 b h i j ≠ ⊤ := by
  unfold score
  split
  · exact bot_ne_top
  · simp only [hr0, hr1, ← EReal.coe_mul, ← coe_sum]
    exact EReal.coe_ne_top _

include hr0 hr1 in
/-- Where the mask word is not zero the score is a real, so not `⊥`. -/
theorem score_ne_bot (b : Fin 2) (h : Fin 16) (i j : Fin 2048) (hm : x3 (ix4 b (0 : Fin 1) i j) ≠ 0#32) :
    score x0 x1 x3 b h i j ≠ ⊥ := by
  unfold score
  rw [if_neg hm]
  simp only [hr0, hr1, ← EReal.coe_mul, ← coe_sum]
  exact EReal.coe_ne_bot _

/-! ## The row maximum -/

/-- Row `(b, h, i)` with key `k` put back on the last axis is `(b, h, i, k)`. -/
theorem lift_row (hr : S2x16x2048x2048.Reduces [3] S2x16x2048) (b : Fin 2) (h : Fin 16) (i : Fin 2048)
    (k : Fin (S2x16x2048x2048.size 3)) : hr.lift (ix3 b h i) k = ix4 b h i (⟨k.val, k.isLt⟩ : Fin 2048) := by
  funext c; apply Fin.ext
  fin_cases c <;> rfl

include hr0 hr1 in
/-- The reduce by maximum over the keys, from `⊥`, is at row `(b, h, i)` the fold of `max` from `⊥` over the row's
    scores. -/
theorem reduce_max_at (b : Fin 2) (h : Fin 16) (i : Fin 2048) :
    val_main_v7 (F := Ideal) x0 x1 x3 (ix3 b h i)
      = (Finset.univ : Finset (Fin 2048)).fold max ⊥ (fun j => score x0 x1 x3 b h i j) := by
  have hr : S2x16x2048x2048.Reduces [3] S2x16x2048 := by decide
  unfold val_main_v7
  refine (Host.reduce_eq_fold_single (FloatOps.maximumf (F := Ideal) (φ := .f32)) (val_main_v6 (F := Ideal) x0 x1 x3)
    (val_main_cst_1 (F := Ideal)) Gen.reducesTo_S2x16x2048x2048_S2x16x2048_d3 hr Gen.h_S_ (ix3 b h i)).trans ?_
  have hinit : val_main_cst_1 (F := Ideal) (Shape.Idx.first Gen.h_S_) = (⊥ : EReal) := by
    rw [val_main_cst_1_apply, Ideal.ofBits_def, ofBits_neg_inf]
  rw [hinit]
  have hf : (val_main_v6 (F := Ideal) x0 x1 x3 ∘ hr.lift (ix3 b h i)) = fun j : Fin 2048 => score x0 x1 x3 b h i j :=
    funext fun k => by
      show val_main_v6 (F := Ideal) x0 x1 x3 (hr.lift (ix3 b h i) k) = _
      rw [lift_row hr b h i k, score_at x0 x1 x3 r0 r1 hr0 hr1]
      rfl
  exact congrArg (fun f => Finset.fold max (⊥ : EReal) f (Finset.univ : Finset (Fin 2048))) hf

include hr0 hr1 in
/-- The shift of row `(b, h, i)`, the maximum of `⊥` and the reduce, is the fold of `max` over the row's scores. -/
theorem shift_at (b : Fin 2) (h : Fin 16) (i : Fin 2048) :
    val_main_v9 (F := Ideal) x0 x1 x3 (ix3 b h i)
      = (Finset.univ : Finset (Fin 2048)).fold max ⊥ (fun j => score x0 x1 x3 b h i j) := by
  rw [val_main_v9_apply, val_main_v8_apply, val_main_cst_2_apply, Ideal.ofBits_def, ofBits_neg_inf,
    Ideal.maximumf_def, reduce_max_at x0 x1 x3 r0 r1 hr0 hr1, max_bot_left]

include hr0 hr1 in
/-- When some key of the row is visible, the shift is a real. -/
theorem shift_real (b : Fin 2) (h : Fin 16) (i : Fin 2048) (hvis : ∃ j : Fin 2048, x3 (ix4 b (0 : Fin 1) i j) ≠ 0#32) :
    ∃ μ : ℝ, val_main_v9 (F := Ideal) x0 x1 x3 (ix3 b h i) = (μ : EReal) := by
  obtain ⟨j0, hj0⟩ := hvis
  obtain ⟨μ, hμ⟩ := fold_max_real (fun j : Fin 2048 => score x0 x1 x3 b h i j)
    (fun j => score_ne_top x0 x1 x3 r0 r1 hr0 hr1 b h i j) ⟨j0, score_ne_bot x0 x1 x3 r0 r1 hr0 hr1 b h i j0 hj0⟩
  exact ⟨μ, by rw [shift_at x0 x1 x3 r0 r1 hr0 hr1, hμ]⟩

/-! ## The shifted exponentials and their sum -/

include hr0 hr1 in
/-- The exponential stage at `(b, h, i, j)` is `e` to the score minus the row's shift. -/
theorem exp_at (b : Fin 2) (h : Fin 16) (i j : Fin 2048) (μ : ℝ)
    (hμ : val_main_v9 (F := Ideal) x0 x1 x3 (ix3 b h i) = (μ : EReal)) :
    val_main_v13 (F := Ideal) x0 x1 x3 (ix4 b h i j) = Ideal.exp (score x0 x1 x3 b h i j - (μ : EReal)) := by
  have e11 : idx_main_v11 (ix4 b h i j) = ix4 b h i (0 : Fin 1) :=
    funext fun a => Fin.ext (by match a with | ⟨0, _⟩ => rfl | ⟨1, _⟩ => rfl | ⟨2, _⟩ => rfl | ⟨3, _⟩ => rfl)
  have e10 : idx_main_v10 (ix4 b h i (0 : Fin 1)) = ix3 b h i :=
    funext fun a => Fin.ext (by match a with | ⟨0, _⟩ => rfl | ⟨1, _⟩ => rfl | ⟨2, _⟩ => rfl)
  rw [val_main_v13_apply, val_main_v12_apply, val_main_v11_apply, e11, val_main_v10_apply, e10, hμ,
    Ideal.hostUnary_exp_def, Ideal.subf_def, score_at x0 x1 x3 r0 r1 hr0 hr1]

include hr0 hr1 in
/-- The normaliser at `(b, h, i, j)` is the sum over the row of the shifted exponentials. -/
theorem denom_at (b : Fin 2) (h : Fin 16) (i j : Fin 2048) (μ : ℝ)
    (hμ : val_main_v9 (F := Ideal) x0 x1 x3 (ix3 b h i) = (μ : EReal)) :
    val_main_v16 (F := Ideal) x0 x1 x3 (ix4 b h i j)
      = ∑ j' : Fin 2048, Ideal.exp (score x0 x1 x3 b h i j' - (μ : EReal)) := by
  have e16 : idx_main_v16 (ix4 b h i j) = ix4 b h i (0 : Fin 1) :=
    funext fun a => Fin.ext (by match a with | ⟨0, _⟩ => rfl | ⟨1, _⟩ => rfl | ⟨2, _⟩ => rfl | ⟨3, _⟩ => rfl)
  have e15 : idx_main_v15 (ix4 b h i (0 : Fin 1)) = ix3 b h i :=
    funext fun a => Fin.ext (by match a with | ⟨0, _⟩ => rfl | ⟨1, _⟩ => rfl | ⟨2, _⟩ => rfl)
  rw [val_main_v16_apply, e16, val_main_v15_apply, e15, val_main_v14_apply, val_main_cst_3_apply, Ideal.ofBits_def,
    Ideal.ofBits_zero_f32, zero_add]
  refine Finset.sum_congr rfl fun k _ => ?_
  have e14 : idx_main_v14 (ix3 b h i) k = ix4 b h i k :=
    funext fun a => Fin.ext (by match a with | ⟨0, _⟩ => rfl | ⟨1, _⟩ => rfl | ⟨2, _⟩ => rfl | ⟨3, _⟩ => rfl)
  rw [e14, exp_at x0 x1 x3 r0 r1 hr0 hr1 b h i k μ hμ]

/-! ## The output -/

include hr0 hr1 hr2 in
/-- The reference's output at `(b, h, i, d)` is the attention output there, when some key of row `i` is visible. -/
theorem out_at (b : Fin 2) (h : Fin 16) (i : Fin 2048) (d : Fin 64)
    (hvis : ∃ j : Fin 2048, x3 (ix4 b (0 : Fin 1) i j) ≠ 0#32) :
    val_main_v18 (F := Ideal) x0 x1 x2 x3 (ix4 b h i d) = attnAt x0 x1 x2 x3 b h i d := by
  obtain ⟨μ, hμ⟩ := shift_real x0 x1 x3 r0 r1 hr0 hr1 b h i hvis
  obtain ⟨j0, hj0⟩ := hvis
  have key := normalised_eq_quotient (K := Fin 2048) (fun j => score x0 x1 x3 b h i j) (fun j => r2 (ix4 b h j d)) μ
    (fun j => score_ne_top x0 x1 x3 r0 r1 hr0 hr1 b h i j) ⟨j0, score_ne_bot x0 x1 x3 r0 r1 hr0 hr1 b h i j0 hj0⟩
  unfold attnAt
  simp only [hr2]
  refine Eq.trans ?_ key
  rw [val_main_v18_apply]
  refine Finset.sum_congr rfl fun j _ => ?_
  have el : lidx_main_v18 (ix4 b h i d) j = ix4 b h i j :=
    funext fun a => Fin.ext (by match a with | ⟨0, _⟩ => rfl | ⟨1, _⟩ => rfl | ⟨2, _⟩ => rfl | ⟨3, _⟩ => rfl)
  have er : ridx_main_v18 (ix4 b h i d) j = ix4 b h j d :=
    funext fun a => Fin.ext (by match a with | ⟨0, _⟩ => rfl | ⟨1, _⟩ => rfl | ⟨2, _⟩ => rfl | ⟨3, _⟩ => rfl)
  rw [el, er, val_main_v17_apply, Ideal.hostDivf_def, exp_at x0 x1 x3 r0 r1 hr0 hr1 b h i j μ hμ,
    denom_at x0 x1 x3 r0 r1 hr0 hr1 b h i j μ hμ, hr2]

end Real

/-- The reference's last stage is `attn`. -/
theorem ref_eq_attn (x0 x1 x2 : Sqkv.Idx → EReal) (x3 : Smask.Idx → BitVec 32)
    (h0 : ∀ i, ∃ r : ℝ, x0 i = (r : EReal)) (h1 : ∀ i, ∃ r : ℝ, x1 i = (r : EReal))
    (h2 : ∀ i, ∃ r : ℝ, x2 i = (r : EReal))
    (hrow : ∀ (b : Fin 2) (i : Fin 2048), ∃ j : Fin 2048, x3 (ix4 b (0 : Fin 1) i j) ≠ 0#32) :
    Cert.ReferenceIdeal.Read.val_main_v18 (F := Ideal) x0 x1 x2 x3 = attn x0 x1 x2 x3 := by
  funext y
  obtain ⟨b, h, i, d, rfl⟩ : ∃ b h i d, y = ix4 b h i d := ⟨y 0, y 1, y 2, y 3, eq_ix4 y⟩
  rw [attn_apply]
  choose r0 hr0 using h0
  choose r1 hr1 using h1
  choose r2 hr2 using h2
  exact out_at x0 x1 x2 x3 r0 r1 r2 hr0 hr1 hr2 b h i d (hrow b i)

end Cert.RefValue

end
-- ==== Proof.PreDecode.lean ====
/-
  What the precondition says of the four argument arrays: every entry of the queries, keys and values is a real
  number, and every query row of the mask has a key whose word is not zero.
-/
import proofs.«413586_j51488067945127_3_alg».proof.Pre_finite_inputs
import proofs.«413586_j51488067945127_3_alg».proof.Proof.Gen.Pre_finite_inputs
import proofs.«413586_j51488067945127_3_alg».proof.Proof.Spec
import Idealize.ShloMosaic.PureOps.Ideal
import Idealize.ShloMosaic.Lib.ReduceAll
import Idealize.ShloMosaic.Lib.ValueIdx

noncomputable section

namespace Cert.PreDecode

open Idealize.ShloMosaic Idealize.ShloMosaic.ValueIdx Cert.Attention

/-! ## A reduction by `or` that came out 1 -/

/-- A left fold by `or` over one-bit words that came out 1 either started at 1 or met a 1. -/
theorem foldl_ori_eq_one {ι : Type} (f : ι → BitVec 1) :
    ∀ (l : List ι) (init : BitVec 1), l.foldl (fun r n => IntOp.ori r (f n)) init = 1#1 →
      init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A `stablehlo.reduce` by `or` from the constant 0 that is 1 at `j` had a 1 at some operand index that reduces
    into `j`. -/
theorem reduce_ori_eq_one {s t u : Shape} {axes : List (Fin s.rank)} (x : s.Idx → BitVec 1) (init : u.Idx → BitVec 1)
    (h : s.ReducesTo axes t) (hu : 0 < u.numel) (hinit : init (Shape.Idx.first hu) = 0#1) (j : t.Idx)
    (e : Host.reduce IntOp.ori x init h hu j = 1#1) : ∃ i : s.Idx, h.drop i = j ∧ x i = 1#1 := by
  rw [Host.reduce_eq_foldl] at e
  rcases foldl_ori_eq_one x _ _ e with h0 | ⟨i, hi, hx⟩
  · rw [hinit] at h0; exact absurd h0 (by decide)
  · rw [List.mem_filter] at hi
    exact ⟨i, by simpa using hi.2, hx⟩

/-! ## One element of `|x| < +∞` -/

/-- The word `0x7F800000` denotes `+∞`. -/
theorem ofBits_inf : Ideal.ofBits .f32 0x7F800000#32 = (⊤ : EReal) := by
  simp [Ideal.ofBits, Ideal.ieee]

/-- An extended real whose absolute value is below `+∞` is a real. -/
theorem real_of_abs_lt_top (x : EReal) (hx : Ideal.cmp .olt (max x (-x)) (⊤ : EReal) = 1#1) : ∃ r : ℝ, x = (r : EReal) := by
  induction x using EReal.rec with
  | bot => simp [Ideal.cmp] at hx
  | coe r => exact ⟨r, rfl⟩
  | top => simp [Ideal.cmp] at hx

/-- `jnp.all(|x| < +∞)` over a whole array of queries, keys or values: every entry is a real. -/
theorem all_real (x : Sqkv.Idx → EReal)
    (hb : Cert.Pre_finite_inputs.S_.BroadcastsInDim Cert.Pre_finite_inputs.S2x16x2048x64
      (![] : Fin 0 → Fin Cert.Pre_finite_inputs.S2x16x2048x64.rank))
    (hr : Cert.Pre_finite_inputs.S2x16x2048x64.ReducesTo [0, 1, 2, 3] Cert.Pre_finite_inputs.S_)
    (hu : 0 < Cert.Pre_finite_inputs.S_.numel)
    (e : Host.reduce IntOp.andi
        (cmpf (F := Ideal) (φ := .f32) .olt (Host.absf x)
          (broadcastInDim Cert.Pre_finite_inputs.S2x16x2048x64 ![] hb
            (constant Cert.Pre_finite_inputs.S_ .f32 0x7F800000#32)))
        (constantI Cert.Pre_finite_inputs.S_ 1 1#1) hr hu ix0 = 1#1) :
    ∀ i, ∃ r : ℝ, x i = (r : EReal) := by
  intro i
  haveI : Subsingleton Cert.Pre_finite_inputs.S_.Idx := ⟨fun a b => funext fun d => d.elim0⟩
  have hi := Host.reduce_andi_all _ _ hr hu ix0 e i
  refine real_of_abs_lt_top (x i) ?_
  rw [← ofBits_inf]
  exact hi

/-- `jnp.any(mask != 0, axis=-1)` at one query row: some key of the row has a nonzero word. -/
theorem row_has_key (x3 : Smask.Idx → BitVec 32)
    (hb : Cert.Pre_finite_inputs.S_.BroadcastsInDim Cert.Pre_finite_inputs.S2x1x2048x2048
      (![] : Fin 0 → Fin Cert.Pre_finite_inputs.S2x1x2048x2048.rank))
    (hr : Cert.Pre_finite_inputs.S2x1x2048x2048.ReducesTo [3] Cert.Pre_finite_inputs.S2x1x2048)
    (hu : 0 < Cert.Pre_finite_inputs.S_.numel) (b : Fin 2) (i : Fin 2048)
    (e : Host.reduce IntOp.ori
        (cmpi .ne x3 (broadcastInDim Cert.Pre_finite_inputs.S2x1x2048x2048 ![] hb
          (constantI Cert.Pre_finite_inputs.S_ 32 0#32)))
        (constantI Cert.Pre_finite_inputs.S_ 1 0#1) hr hu (ix3 b (0 : Fin 1) i) = 1#1) :
    ∃ j : Fin 2048, x3 (ix4 b (0 : Fin 1) i j) ≠ 0#32 := by
  obtain ⟨y, hd, hy⟩ := reduce_ori_eq_one _ _ hr hu rfl _ e
  have c0 : y 0 = b := Fin.ext (by
    rw [← Shape.ReducesTo.drop_apply_val_of_eq hr y 0 0, hd])
  have c1 : y 1 = (0 : Fin 1) := Fin.ext (by
    rw [← Shape.ReducesTo.drop_apply_val_of_eq hr y 1 1, hd])
  have c2 : y 2 = i := Fin.ext (by
    rw [← Shape.ReducesTo.drop_apply_val_of_eq hr y 2 2, hd])
  have ey : y = ix4 b (0 : Fin 1) i (y 3) := by
    funext a
    match a with
    | ⟨0, _⟩ => exact c0
    | ⟨1, _⟩ => exact c1
    | ⟨2, _⟩ => exact c2
    | ⟨3, _⟩ => rfl
  have hne : x3 y ≠ 0#32 := IntOp.cmpi_ne.1 hy
  exact ⟨y 3, fun hx => hne ((congrArg x3 ey).trans hx)⟩

/-- The precondition read back. -/
theorem decode (x0 x1 x2 : Sqkv.Idx → EReal) (x3 : Smask.Idx → BitVec 32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ ∀ (b : Fin 2) (i : Fin 2048), ∃ j : Fin 2048, x3 (ix4 b (0 : Fin 1) i j) ≠ 0#32 := by
  have h0 := congrFun h ValueIdx.ix0
  dsimp only [Cert.Pre_finite_inputs.fn, Cert.Pre_finite_inputs.fn_part1] at h0
  haveI : Subsingleton Cert.Pre_finite_inputs.S_.Idx := ⟨fun a b => funext fun d => d.elim0⟩
  obtain ⟨h012, h3⟩ := IntOp.andi_eq_one.1 h0
  obtain ⟨h01, h2⟩ := IntOp.andi_eq_one.1 h012
  obtain ⟨h0', h1⟩ := IntOp.andi_eq_one.1 h01
  refine ⟨all_real x0 _ _ _ h0', all_real x1 _ _ _ h1, all_real x2 _ _ _ h2, fun b i => ?_⟩
  exact row_has_key x3 _ _ _ b i (Host.reduce_andi_all _ _ _ _ ix0 h3 (ix3 b (0 : Fin 1) i))

end Cert.PreDecode

end
-- ==== Proof.lean ====
/-
  Scaled-dot-product attention with an integer mask, over 2 batches, 16 heads, 2048 positions and 64 features: the
  kernel and its reference compute the same function over the extended reals.

  The kernel, one grid point per (batch, head, chunk of 512 query rows), forms the scores of its query rows against
  all 2048 keys with the `1/8` scale folded into the queries, fills the masked entries with its large negative
  constant (named `⊥`), exponentiates WITHOUT subtracting a row maximum, multiplies the exponentials against the
  values and divides by the row sums afterwards. The reference divides the raw scores by `√64`, fills with `-∞`,
  and takes the stable softmax (subtract the row maximum, exponentiate, normalise) before the product with the
  values. On real inputs whose every mask row has a visible key the two agree: the row maximum is a real, the
  factor `e^(-max)` cancels between numerator and denominator, and scaling before or after the dot product is the
  same real (`SoftmaxLaw.lean`). The precondition gives exactly that: the float inputs are finite, and every query
  row of the mask has a nonzero word (without a visible key the reference itself is `exp(-∞ - -∞)` normalised by
  zero). The kernel's array is read off its run block by block (`KernelPiece`, `KernelBlock`, `KernelValue`), the
  reference's off its operations one at a time (`RefValue`), the precondition in `PreDecode`.
-/
import proofs.«413586_j51488067945127_3_alg».proof.Defs
import proofs.«413586_j51488067945127_3_alg».proof.Proof.Gen.Kernel
import proofs.«413586_j51488067945127_3_alg».proof.Proof.Gen.Kernel.Skeleton
import proofs.«413586_j51488067945127_3_alg».proof.Proof.Gen.Kernel.Launch
import proofs.«413586_j51488067945127_3_alg».proof.Proof.Gen.Kernel.Points
import proofs.«413586_j51488067945127_3_alg».proof.Proof.Gen.Kernel.Frame
import proofs.«413586_j51488067945127_3_alg».proof.Proof.Gen.KernelIdeal
import proofs.«413586_j51488067945127_3_alg».proof.Proof.Gen.KernelIdeal.Skeleton
import proofs.«413586_j51488067945127_3_alg».proof.Proof.Gen.KernelIdeal.Launch
import proofs.«413586_j51488067945127_3_alg».proof.Proof.Gen.KernelIdeal.Points
import proofs.«413586_j51488067945127_3_alg».proof.Proof.Gen.KernelIdeal.Frame
import proofs.«413586_j51488067945127_3_alg».proof.Proof.Gen.ReferenceIdeal
import proofs.«413586_j51488067945127_3_alg».proof.Proof.Gen.Pre_finite_inputs
import proofs.«413586_j51488067945127_3_alg».proof.Proof.Gen.KernelIdeal.Value
import proofs.«413586_j51488067945127_3_alg».proof.Proof.Gen.ReferenceIdeal.Run
import proofs.«413586_j51488067945127_3_alg».proof.Proof.Gen.ReferenceIdeal.Read
import proofs.«413586_j51488067945127_3_alg».proof.Proof.KernelValue
import proofs.«413586_j51488067945127_3_alg».proof.Proof.RefValue
import proofs.«413586_j51488067945127_3_alg».proof.Proof.PreDecode
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the mask fill `-0.7 · max f32` is named `⊥`. -/
theorem preserves : Cert.preserves_Kernel_KernelIdeal :=
  IdealRules.named_const.statement Cert.KernelIdeal.κ "neg_big" .f32 0xFF333332#32 ⊥ rfl

/-- Both programs end with the attention function of the (agreeing) arguments in their result arrays. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2]
  obtain ⟨f0, f1, f2, frow⟩ := Cert.PreDecode.decode _ _ _ _ (hpre c)
  exact Cert.RefValue.ref_eq_attn _ _ _ _ f0 f1 f2 frow

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
